-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x128 .f32) (main_arg1 : IVec S2x1600000 32) (main_arg2 : FVec F S32x128 .f32) (main_arg3 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩

abbrev nBuf : Space → Nat
  | .hbm => 23
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S32x128, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S1x32, .f32⟩
  | .hbm, ⟨22, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S32x128, .f32⟩
  | .local _ .vmem, ⟨5, _⟩ => ⟨S1x32, .f32⟩
  | .local _ .vmem, ⟨6, _⟩ => ⟨S5000x32, .f32⟩
  | .local _ .vmem, ⟨7, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S32x128_S5000x32_1_1_0_0_n_n_wf : DotDims.WF S5000x128 S32x128 S5000x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S32x128_S5000x32_1_1_0_0_n_n : DotDims S5000x128 S32x128 S5000x32 where
  lhsContracting := [1]
  rhsContracting := [1]
  lhsNonContracting := [0]
  rhsNonContracting := [0]
  lhsBatch := []
  rhsBatch := []
  wf := dot_S5000x128_S32x128_S5000x32_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x32 : Shape := ⟨2, ![128, 32]⟩
abbrev S100000x32 : Shape := ⟨2, ![100000, 32]⟩
abbrev S1x32 : Shape := ⟨2, ![1, 32]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S32x128, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | .hbm, ⟨22, _⟩ => ⟨S128x32, .f32⟩
  | .hbm, ⟨23, _⟩ => ⟨S100000x32, .f32⟩
  | .hbm, ⟨24, _⟩ => ⟨S1x32, .f32⟩
  | .hbm, ⟨25, _⟩ => ⟨S100000x32, .f32⟩
  | .hbm, ⟨26, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.HeadSpec.lean ====
/-
  The layer's result as one function of its arrays.  With h = x + agg the node features after sum aggregation
  (agg[n, ·] the sum of the features of n's in-neighbours), the linear head gives every node n and class c

      out[n, c] = (∑ k < 128, (x[n, k] + agg[n, k]) · W[c, k]) + b[c]

  on the extended reals.  The weight matrix is read row c, column k: the kernel contracts the feature axis of both
  operands, the reference transposes W first and contracts rows against columns; both are this sum, term by term and
  in this order, so no algebraic law beyond the definition is needed.
-/
import Idealize.ShloMosaic.PureOps.Ideal
import Idealize.ShloMosaic.Lib.ValueIdx

noncomputable section

namespace Cert.HeadSpec

open Idealize.ShloMosaic Idealize.ShloMosaic.ValueIdx

/-- The linear head over combined features: out[n, c] = (∑ k, (x[n,k] + agg[n,k]) · W[c,k]) + b[c]. -/
def headOut (x agg : (⟨2, ![100000, 128]⟩ : Shape).Idx → EReal) (W : (⟨2, ![32, 128]⟩ : Shape).Idx → EReal)
    (b : (⟨1, ![32]⟩ : Shape).Idx → EReal) : (⟨2, ![100000, 32]⟩ : Shape).Idx → EReal :=
  fun i => (∑ k : Fin 128, (x (ix2 (i 0) k) + agg (ix2 (i 0) k)) * W (ix2 (i 1) k)) + b (ix1 (i 1))

theorem headOut_apply (x agg : (⟨2, ![100000, 128]⟩ : Shape).Idx → EReal) (W : (⟨2, ![32, 128]⟩ : Shape).Idx → EReal)
    (b : (⟨1, ![32]⟩ : Shape).Idx → EReal) (n : Fin 100000) (c : Fin 32) :
    headOut x agg W b (ix2 n c) = (∑ k : Fin 128, (x (ix2 n k) + agg (ix2 n k)) * W (ix2 c k)) + b (ix1 c) := rfl

end Cert.HeadSpec

end
-- ==== Proof.KernelBlock.lean ====
/-
  What the kernel body computes on one block, entry by entry.  On a block of 5000 node rows the body loads the
  features x and the aggregate agg, adds them, contracts the feature axis of the sum with the feature axis of the
  weight block (both operands carry the contracted axis second: rows against rows), and adds the bias row to every
  node row.  At the exact instance narrowing a float format is the identity and the matrix unit started from the
  zero accumulator is the plain sum of products, so entry (p, q) of the stored block is

      (∑ k < 128, (x[p, k] + agg[p, k]) · W[q, k]) + bias[0, q].
-/
import proofs.«124883_j71949292143001_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-! ## The contraction's operand indices: rows against rows -/

/-- The left operand's row is the result's row. -/
theorem lhs_row (i : S5000x32.Idx) (q : dot_S5000x128_S32x128_S5000x32_1_1_0_0_n_n.contr.Idx) :
    (dot_S5000x128_S32x128_S5000x32_1_1_0_0_n_n.lhsIdx i q 0).val = (i 0).val := by
  unfold DotDims.lhsIdx
  rw [dif_neg (show ¬(0 : Fin S5000x128.rank) ∈ dot_S5000x128_S32x128_S5000x32_1_1_0_0_n_n.lhsBatch by decide), dif_pos (show (0 : Fin S5000x128.rank) ∈ dot_S5000x128_S32x128_S5000x32_1_1_0_0_n_n.lhsNonContracting by decide)]
  rfl

/-- The left operand's column is the contraction coordinate. -/
theorem lhs_col (i : S5000x32.Idx) (q : dot_S5000x128_S32x128_S5000x32_1_1_0_0_n_n.contr.Idx) :
    (dot_S5000x128_S32x128_S5000x32_1_1_0_0_n_n.lhsIdx i q 1).val = (q ⟨0, by decide⟩).val :=
  dot_S5000x128_S32x128_S5000x32_1_1_0_0_n_n.lhsIdx_val_of_single rfl i q

/-- The right operand's row is the result's column: the weight matrix is read row by class. -/
theorem rhs_row (i : S5000x32.Idx) (q : dot_S5000x128_S32x128_S5000x32_1_1_0_0_n_n.contr.Idx) :
    (dot_S5000x128_S32x128_S5000x32_1_1_0_0_n_n.rhsIdx i q 0).val = (i 1).val := by
  unfold DotDims.rhsIdx
  rw [dif_neg (show ¬(0 : Fin S32x128.rank) ∈ dot_S5000x128_S32x128_S5000x32_1_1_0_0_n_n.rhsBatch by decide), dif_pos (show (0 : Fin S32x128.rank) ∈ dot_S5000x128_S32x128_S5000x32_1_1_0_0_n_n.rhsNonContracting by decide)]
  rfl

/-- The right operand's column is the contraction coordinate too. -/
theorem rhs_col (i : S5000x32.Idx) (q : dot_S5000x128_S32x128_S5000x32_1_1_0_0_n_n.contr.Idx) :
    (dot_S5000x128_S32x128_S5000x32_1_1_0_0_n_n.rhsIdx i q 1).val = (q ⟨0, by decide⟩).val :=
  dot_S5000x128_S32x128_S5000x32_1_1_0_0_n_n.rhsIdx_val_of_single rfl i q

/-- The matrix unit from the zero accumulator, at the exact instance: entry (p, q) is the sum over the feature
    axis of the left operand's row p against the right operand's row q. -/
theorem matmul_rows {φ₁ φ₂ : FTy} (l : FVec Ideal S5000x128 φ₁) (r : FVec Ideal S32x128 φ₂) (p : Fin 5000) (q : Fin 32) :
    matmul dot_S5000x128_S32x128_S5000x32_1_1_0_0_n_n none l r (constant S5000x32 .f32 0x00000000#32) (ix2 p q)
      = ∑ k : Fin 128, l (ix2 p k) * r (ix2 q k) := by
  refine (Ideal.matmul_constant_zero_apply dot_S5000x128_S32x128_S5000x32_1_1_0_0_n_n none l r (ix2 p q)).trans ?_
  rw [← Equiv.sum_comp (contrEquiv1 dot_S5000x128_S32x128_S5000x32_1_1_0_0_n_n 128 rfl rfl).symm]
  refine Finset.sum_congr rfl fun k _ => ?_
  have hk := contrEquiv1_symm_val dot_S5000x128_S32x128_S5000x32_1_1_0_0_n_n 128 rfl rfl k
  have el : dot_S5000x128_S32x128_S5000x32_1_1_0_0_n_n.lhsIdx (ix2 p q) ((contrEquiv1 dot_S5000x128_S32x128_S5000x32_1_1_0_0_n_n 128 rfl rfl).symm k) = ix2 p k := funext fun a => Fin.ext (by
    match a with
    | ⟨0, _⟩ => exact lhs_row _ _
    | ⟨1, _⟩ => exact (lhs_col _ _).trans hk)
  have er : dot_S5000x128_S32x128_S5000x32_1_1_0_0_n_n.rhsIdx (ix2 p q) ((contrEquiv1 dot_S5000x128_S32x128_S5000x32_1_1_0_0_n_n 128 rfl rfl).symm k) = ix2 q k := funext fun a => Fin.ext (by
    match a with
    | ⟨0, _⟩ => exact rhs_row _ _
    | ⟨1, _⟩ => exact (rhs_col _ _).trans hk)
  rw [el, er]

/-! ## The bias row under every node row -/

/-- The one-row bias block broadcast over the 5000 node rows reads, at (p, q), its entry (0, q). -/
theorem bias_rows (v : Vec Ideal S1x32 .f32) (p : Fin 5000) (q : Fin 32) :
    broadcastTo S5000x32 (shapeCast S1x32 v shapeCasts_S1x32_S1x32) broadcasts_S1x32_S5000x32 (ix2 p q) = v (ix2 0 q) := by
  rw [shapeCast_self]
  exact broadcastTo_apply v broadcasts_S1x32_S5000x32 (ix2 p q) (ix2 0 q) (fun a => match a with
    | ⟨0, _⟩ => by show 0 = if (1 : Nat) = 1 then 0 else p.val; rw [if_pos rfl]
    | ⟨1, _⟩ => by show q.val = if (32 : Nat) = 1 then 0 else q.val; rw [if_neg (by decide)])

/-! ## The stored block -/

/-- Entry (p, q) of what the body stores, from the four loaded blocks. -/
theorem stored_apply (v0 v1 : Vec Ideal S5000x128 .f32) (v5 : Vec Ideal S32x128 .f32) (v8 : Vec Ideal S1x32 .f32)
    (p : Fin 5000) (q : Fin 32) :
    k0_pay1 (F := Ideal) v0 v1 v5 v8 (ix2 p q)
      = (∑ k : Fin 128, (v0 (ix2 p k) + v1 (ix2 p k)) * v5 (ix2 q k)) + v8 (ix2 0 q) := by
  simp only [k0_pay1]
  refine (addf_apply _ _ _).trans (congrArg₂ (· + ·) ?_ (bias_rows v8 p q))
  refine (matmul_rows _ _ p q).trans (Finset.sum_congr rfl fun k _ => ?_)
  rw [shapeCast_self]
  rfl

end Cert.KernelIdeal.Block

end
-- ==== Proof.KernelValue.lean ====
/-
  The kernel's result array after the run, as the layer's function of the argument arrays.

  The grid has 20 points; point t stages rows 5000·t … 5000·t + 4999 of the features and of the aggregate, the whole
  weight matrix and the whole one-row bias, and writes rows 5000·t … 5000·t + 4999 of the result.  The aggregate the
  region finds is what the host operations before it left: the gather of source rows scattered and summed into
  target rows (one term of the features and the edge list, never opened here); the bias row it finds is the bias
  vector reshaped to one row.  Entry (p, q) of the block point t stores is the layer's function at row 5000·t + p,
  class q; the 20 blocks cover the 100000 rows, so the array ends holding that function everywhere.
-/
import proofs.«124883_j71949292143001_1_alg».proof.Proof.Gen.KernelIdeal.Value
import proofs.«124883_j71949292143001_1_alg».proof.Proof.KernelBlock
import proofs.«124883_j71949292143001_1_alg».proof.Proof.HeadSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value Cert.HeadSpec

variable (m : (ℓ : Loc nD τ sig) → Buf (Elt Ideal) ℓ) (ρ : Dev nD → PrngReg)

/-! ## What the region finds in the two arrays the host operations wrote -/

/-- The aggregate: source rows of the features gathered along the edge list (a negative source index wrapped by the
    node count first), scattered by target index and summed into an array of zeros. -/
def agg {F : FTy → Type} [FloatOps F] (x0 : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (Host.gather gather_S100000x128_S1600000x1_S1600000x128_1_0_n_n_0_1_1128 (x0) (broadcastInDim S1600000x1 ![0] bcast_S1600000_S1600000x1_0 (select (cmpi .slt (shapeCast _ (extractStridedSlice S1x1600000 ![0, 0] (x1) slices_S2x1600000_S1x1600000_0_0) shapeCasts_S1x1600000_S1600000) (broadcastInDim S1600000 ![] bcast_S_S1600000 (constantI S_ 32 0#32))) (addi (shapeCast _ (extractStridedSlice S1x1600000 ![0, 0] (x1) slices_S2x1600000_S1x1600000_0_0) shapeCasts_S1x1600000_S1600000) (broadcastInDim S1600000 ![] bcast_S_S1600000 (constantI S_ 32 100000#32))) (shapeCast _ (extractStridedSlice S1x1600000 ![0, 0] (x1) slices_S2x1600000_S1x1600000_0_0) shapeCasts_S1x1600000_S1600000))))

/-- The region finds the aggregate of the launched features and edge list in its second window's array. -/
theorem V_agg (c : Dev nD) :
    (V m c main_v13 : S100000x128.Idx → EReal) = agg (F := Ideal) (m ((c : Thread nD τ).loc main_arg0)) (m ((c : Thread nD τ).loc main_arg1)) := by
  dsimp only [V, hostOps0]; after_results; rfl

/-- The region finds the bias vector, reshaped to one row, in its fourth window's array. -/
theorem V_bias (c : Dev nD) :
    (V m c main_v14 : S1x32.Idx → EReal) = shapeCast S1x32 (m ((c : Thread nD τ).loc main_arg3)) shapeCasts_S32_S1x32 := by
  dsimp only [V, hostOps0]; after_results; rfl

/-- Entry (0, q) of the one-row bias is entry q of the bias vector. -/
theorem bias_row_apply (c : Dev nD) (q : Fin 32) :
    (V m c main_v14 : S1x32.Idx → EReal) (ix2 0 q) = ((m ((c : Thread nD τ).loc main_arg3)) : S32.Idx → EReal) (ix1 q) := by
  rw [V_bias]
  exact shapeCast_apply _ shapeCasts_S32_S1x32 (ix2 0 q) (ix1 q)
    (by rewrite [Shape.rowMajor_val_one, Shape.rowMajor_val_two]; show q.val = 0 * 32 + q.val; omega)

/-! ## The result, and the printed index maps -/

/-- The layer's function of the launched features, weights and bias and of an array `A` in the aggregate's place:
    the region is followed for whatever its second window's array holds, and the aggregate is put there at the end. -/
def resultOf (A : (c : Dev nD) → Buf (Elt Ideal) ((c : Thread nD τ).loc main_v13)) (c : Dev nD) : S100000x32.Idx → EReal :=
  headOut (m ((c : Thread nD τ).loc main_arg0)) (A c) (m ((c : Thread nD τ).loc main_arg2)) (m ((c : Thread nD τ).loc main_arg3))

theorem hz : (![0, 0] : Fin 2 → Nat) = fun _ => 0 := funext fun a => by fin_cases a <;> rfl

/-- The index maps, decided over the 20 points: the feature, aggregate and result windows sit at block row t, block
    column 0; the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks as rows of the arrays -/

/-- The feature block at point t is rows 5000·t … of the launched features. -/
theorem feat_block (c : Dev nD) (t : Fin cfg0.N) (p : Fin 5000) (k : Fin 128) (r : Fin 100000) (hr : r.val = 5000 * t.val + p.val) :
    (iblk m c 0 t : Vec Ideal S5000x128 .f32) (ix2 p k) = ((m ((c : Thread nD τ).loc main_arg0)) : S100000x128.Idx → EReal) (ix2 r k) := by
  obtain ⟨e0, e1, -⟩ := idx_facts t
  unfold iblk
  rw [View.read_apply]
  show V m c main_arg0 _ = _
  refine (congrFun (V_main_arg0 m c) _).trans ?_
  refine congrArg (m ((c : Thread nD τ).loc main_arg0)) ?_
  funext a; apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The second window's block at point t is the same rows of its array. -/
theorem agg_block (A : (c : Dev nD) → Buf (Elt Ideal) ((c : Thread nD τ).loc main_v13)) (hA : ∀ c : Dev nD, V m c main_v13 = A c)
    (c : Dev nD) (t : Fin cfg0.N) (p : Fin 5000) (k : Fin 128) (r : Fin 100000) (hr : r.val = 5000 * t.val + p.val) :
    (iblk m c 1 t : Vec Ideal S5000x128 .f32) (ix2 p k) = (A c : S100000x128.Idx → EReal) (ix2 r k) := by
  obtain ⟨-, -, e0, e1, -⟩ := idx_facts t
  unfold iblk
  rw [show V m c (Pipeline.arrRef spec0 1) = A c from hA c]
  rw [View.read_apply]
  show A c _ = _
  refine congrArg (A c) ?_
  funext a; apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The weight block is the whole weight matrix at every point. -/
theorem weight_block (c : Dev nD) (t : Fin cfg0.N) (q : Fin 32) (k : Fin 128) :
    (iblk m c 2 t : Vec Ideal S32x128 .f32) (ix2 q k) = ((m ((c : Thread nD τ).loc main_arg2)) : S32x128.Idx → EReal) (ix2 q k) := by
  obtain ⟨-, -, -, -, e0, e1, -⟩ := idx_facts t
  unfold iblk
  rw [View.read_apply]
  show V m c main_arg2 _ = _
  refine (congrFun (V_main_arg2 m c) _).trans ?_
  refine congrArg (m ((c : Thread nD τ).loc main_arg2)) ?_
  funext a; apply Fin.ext
  match a with
  | ⟨0, _⟩ => show win0_2.index t 0 * 32 + 1 * q.val = q.val; rw [e0]; omega
  | ⟨1, _⟩ => show win0_2.index t 1 * 128 + 1 * k.val = k.val; rw [e1]; omega

/-- The bias block is the one-row bias at every point: entry (0, q) is entry q of the bias vector. -/
theorem bias_block (c : Dev nD) (t : Fin cfg0.N) (q : Fin 32) :
    (iblk m c 3 t : Vec Ideal S1x32 .f32) (ix2 0 q) = ((m ((c : Thread nD τ).loc main_arg3)) : S32.Idx → EReal) (ix1 q) := by
  obtain ⟨-, -, -, -, -, -, e0, e1, -⟩ := idx_facts t
  unfold iblk
  rw [View.read_apply]
  show (V m c main_v14 : S1x32.Idx → EReal) _ = _
  refine Eq.trans ?_ (bias_row_apply m c q)
  refine congrArg (V m c main_v14 : S1x32.Idx → EReal) ?_
  funext a; apply Fin.ext
  match a with
  | ⟨0, _⟩ => show win0_3.index t 0 * 1 + 1 * 0 = 0; rw [e0]
  | ⟨1, _⟩ => show win0_3.index t 1 * 32 + 1 * q.val = q.val; rw [e1]; omega

/-! ## One stored entry, one written block, the whole array -/

/-- Entry (p, q) of the block point t stores is the layer's function at row 5000·t + p, class q. -/
theorem block_entry (A : (c : Dev nD) → Buf (Elt Ideal) ((c : Thread nD τ).loc main_v13)) (hA : ∀ c : Dev nD, V m c main_v13 = A c)
    (c : Dev nD) (t : Fin cfg0.N) (p : Fin 5000) (q : Fin 32) (r : Fin 100000) (hr : r.val = 5000 * t.val + p.val) :
    k0_pay1 (F := Ideal) (iblk m c 0 t) (iblk m c 1 t) (iblk m c 2 t) (iblk m c 3 t) (ix2 p q) = resultOf m A c (ix2 r q) := by
  refine (Block.stored_apply (iblk m c 0 t) (iblk m c 1 t) (iblk m c 2 t) (iblk m c 3 t) p q).trans ?_
  refine Eq.trans ?_ (headOut_apply _ _ _ _ r q).symm
  refine congrArg₂ (· + ·) (Finset.sum_congr rfl fun k _ => ?_) (bias_block m c t q)
  exact congrArg₂ (· * ·) (congrArg₂ (· + ·) (feat_block m c t p k r hr) (agg_block m A hA c t p k r hr)) (weight_block m c t q k)

/-- What point t writes back is block t of the layer's function. -/
theorem flushed_eq (A : (c : Dev nD) → Buf (Elt Ideal) ((c : Thread nD τ).loc main_v13)) (hA : ∀ c : Dev nD, V m c main_v13 = A c)
    (c : Dev nD) (t : Fin cfg0.N) :
    (dats m 0 c).flushed 4 t = ((cfg0.win 4).blk t).view.read (Elt Ideal) (resultOf m A c) := by
  rw [flushed4]
  unfold out0_4
  rw [View.canon_unit_zero hz]
  simp only [View.ld_unit_zero (S := S5000x128) hz, View.ld_unit_zero (S := S32x128) hz, View.ld_unit_zero (S := S1x32) hz]
  obtain ⟨-, -, -, -, -, -, -, -, e0, e1⟩ := idx_facts t
  have ht : t.val < 20 := Nat.lt_of_lt_of_eq t.isLt N_0
  funext j
  have hj0 : (j 0).val < 5000 := (j 0).isLt
  have hj1 : (j 1).val < 32 := (j 1).isLt
  show k0_pay1 (F := Ideal) (iblk m c 0 t) (iblk m c 1 t) (iblk m c 2 t) (iblk m c 3 t) j = resultOf m A c (((cfg0.win 4).blk t).view.emb j)
  have hj : j = ix2 (⟨(j 0).val, hj0⟩ : Fin 5000) (⟨(j 1).val, hj1⟩ : Fin 32) :=
    funext fun a => Fin.ext (by match a with | ⟨0, _⟩ => rfl | ⟨1, _⟩ => rfl)
  have hemb : ((cfg0.win 4).blk t).view.emb j = ix2 (⟨5000 * t.val + (j 0).val, by omega⟩ : Fin 100000) (⟨(j 1).val, hj1⟩ : Fin 32) := by
    funext a; apply Fin.ext
    match a with
    | ⟨0, _⟩ => show win0_4.index t 0 * 5000 + 1 * (j 0).val = 5000 * t.val + (j 0).val; rw [e0]; omega
    | ⟨1, _⟩ => show win0_4.index t 1 * 32 + 1 * (j 1).val = (j 1).val; rw [e1]; omega
  rw [hemb]
  refine (congrArg (k0_pay1 (F := Ideal) (iblk m c 0 t) (iblk m c 1 t) (iblk m c 2 t) (iblk m c 3 t)) hj).trans ?_
  exact block_entry m A hA c t _ _ _ rfl

/-- An index of the result array is in point t's block iff each coordinate is in the block's range on its axis. -/
theorem mem_blk (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v15).slice (win0_4.rect t)).set ↔ _
  rw [View.set_slice_whole, Rect.mem_set_unit]
  exact Iff.rfl

/-- Row r of the result lies in the block of point r / 5000. -/
theorem cover (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  let t : Fin cfg0.N := ⟨(i 0).val / 5000, by rw [show cfg0.N = 20 from N_0]; omega⟩
  obtain ⟨-, -, -, -, -, -, -, -, e0, e1⟩ := idx_facts t
  have htv : t.val = (i 0).val / 5000 := rfl
  refine ⟨t, flush0_4 t, ?_⟩
  rw [mem_blk]
  intro a
  match a with
  | ⟨0, _⟩ => show win0_4.index t 0 * 5000 ≤ (i 0).val ∧ (i 0).val < win0_4.index t 0 * 5000 + 5000; rw [e0, htv]; omega
  | ⟨1, _⟩ => show win0_4.index t 1 * 32 ≤ (i 1).val ∧ (i 1).val < win0_4.index t 1 * 32 + 32; rw [e1]; omega

/-- The result array after the run is the layer's function, with the second window's array in the aggregate's place. -/
theorem final (A : (c : Dev nD) → Buf (Elt Ideal) ((c : Thread nD τ).loc main_v13)) (hA : ∀ c : Dev nD, V m c main_v13 = A c)
    (c : Dev nD) : (dats m 0 c).arrAt 4 cfg0.N = resultOf m A c :=
  (dats m 0 c).arrAt_eq_of_cover 4 (resultOf m A c) (fun t _ => flushed_eq m A hA c t) cover

/-- The layer's function of the launched arrays: the aggregate of the launched features and edge list put in. -/
def result (c : Dev nD) : S100000x32.Idx → EReal :=
  resultOf m (fun c => agg (F := Ideal) (m ((c : Thread nD τ).loc main_arg0)) (m ((c : Thread nD τ).loc main_arg1))) c

/-- The kernel's run, read: the result array at the layer's function, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m _ (fun c => V_agg m c) c), (h c).2⟩) (run_blocks m ρ)

end Cert.KernelIdeal.ArrayValue

end
-- ==== Proof.RefValue.lean ====
/-
  The reference's result, read entry by entry.  The reference adds the aggregate to the features, transposes the
  weight matrix, contracts rows of the sum against columns of the transpose, and adds the bias broadcast over the
  nodes.  Reading the transpose at (k, c) is reading the weight matrix at (c, k), so entry (n, c) is

      (∑ k < 128, (x[n, k] + agg[n, k]) · W[c, k]) + b[c],

  the layer's function of the arrays; the aggregate (a gather of source rows scattered and summed into target rows)
  is carried as one term and never opened.
-/
import proofs.«124883_j71949292143001_1_alg».proof.Proof.Gen.ReferenceIdeal.Run
import proofs.«124883_j71949292143001_1_alg».proof.Proof.Gen.ReferenceIdeal.Read
import proofs.«124883_j71949292143001_1_alg».proof.Proof.HeadSpec

noncomputable section

namespace Cert.ReferenceIdeal.RefValue

open Cert.ReferenceIdeal Cert.ReferenceIdeal.Gen Cert.ReferenceIdeal.Read Cert.HeadSpec
open Idealize.ShloMosaic Idealize.ShloMosaic.ValueIdx

/-- The product's left operand is read at row n, column k. -/
theorem left_at (n : Fin 100000) (c : Fin 32) (k : Fin 128) : lidx_main_v16 (ix2 n c) k = ix2 n k :=
  funext fun a => Fin.ext (by match a with | ⟨0, _⟩ => rfl | ⟨1, _⟩ => rfl)

/-- The transposed weights at (k, c) are the weights at (c, k). -/
theorem weight_at (n : Fin 100000) (c : Fin 32) (k : Fin 128) : idx_main_v15 (ridx_main_v16 (ix2 n c) k) = ix2 c k :=
  funext fun a => Fin.ext (by match a with | ⟨0, _⟩ => rfl | ⟨1, _⟩ => rfl)

/-- The bias broadcast over the nodes reads entry c at (n, c). -/
theorem bias_at (n : Fin 100000) (c : Fin 32) : idx_main_v17 (idx_main_v18 (ix2 n c)) = ix1 c :=
  funext fun a => Fin.ext (by match a with | ⟨0, _⟩ => rfl)

/-- The reference's last stage is the layer's function of the arrays, with the aggregate its own stage. -/
theorem result_eq (x0 : (⟨S100000x128, .f32⟩ : BufTy).Contents (Elt Ideal)) (x1 : (⟨S2x1600000, .i32⟩ : BufTy).Contents (Elt Ideal))
    (x2 : (⟨S32x128, .f32⟩ : BufTy).Contents (Elt Ideal)) (x3 : (⟨S32, .f32⟩ : BufTy).Contents (Elt Ideal)) :
    val_main_v19 (F := Ideal) x0 x1 x2 x3 = headOut x0 (val_main_v13 (F := Ideal) x0 x1) x2 x3 := by
  funext i
  obtain ⟨n, c, rfl⟩ : ∃ (n : Fin 100000) (c : Fin 32), i = ix2 n c := ⟨i 0, i 1, eq_ix2 i⟩
  rw [val_main_v19_apply, val_main_v16_apply, val_main_v18_apply, val_main_v17_apply, headOut_apply]
  simp only [val_main_v14_apply, val_main_v15_apply, left_at, weight_at, bias_at, Ideal.addf_def]

end Cert.ReferenceIdeal.RefValue

end
-- ==== Proof.lean ====
/-
  One graph layer with sum aggregation and a linear head: every node's features are added to the sum of its
  in-neighbours' features, and the result is multiplied by the transposed weight matrix and shifted by the bias,

      out[n, c] = (∑ k < 128, (x[n, k] + agg[n, k]) · W[c, k]) + b[c].

  Both programs build the aggregate with the same host operations (wrap negative source indices, gather source rows,
  scatter-add into target rows).  The kernel then works on 20 blocks of 5000 nodes: it adds features and aggregate,
  narrows both matrix operands (the identity on the extended reals), contracts the feature axis of the block against
  the feature axis of the weights from a zero accumulator, and adds the bias row.  The reference adds, transposes the
  weights, takes one product over all nodes and adds the broadcast bias.  On the extended reals both are the sum
  above, term by term in the same order, so the two result arrays are equal with no appeal to finiteness.

  Proof/HeadSpec.lean states the function; Proof/KernelBlock.lean reads one stored block of the kernel at an entry;
  Proof/KernelValue.lean carries the blocks to the whole result array; Proof/RefValue.lean reads the reference's last
  stage at an entry.  The kernel programs' runs and frames and the reference's run are the generated modules'.
-/
import proofs.«124883_j71949292143001_1_alg».proof.Defs
import proofs.«124883_j71949292143001_1_alg».proof.Proof.Gen.Kernel
import proofs.«124883_j71949292143001_1_alg».proof.Proof.Gen.Kernel.Skeleton
import proofs.«124883_j71949292143001_1_alg».proof.Proof.Gen.Kernel.Launch
import proofs.«124883_j71949292143001_1_alg».proof.Proof.Gen.Kernel.Points
import proofs.«124883_j71949292143001_1_alg».proof.Proof.Gen.Kernel.Frame
import proofs.«124883_j71949292143001_1_alg».proof.Proof.Gen.KernelIdeal
import proofs.«124883_j71949292143001_1_alg».proof.Proof.Gen.KernelIdeal.Skeleton
import proofs.«124883_j71949292143001_1_alg».proof.Proof.Gen.KernelIdeal.Launch
import proofs.«124883_j71949292143001_1_alg».proof.Proof.Gen.KernelIdeal.Points
import proofs.«124883_j71949292143001_1_alg».proof.Proof.Gen.KernelIdeal.Frame
import proofs.«124883_j71949292143001_1_alg».proof.Proof.Gen.KernelIdeal.Value
import proofs.«124883_j71949292143001_1_alg».proof.Proof.Gen.ReferenceIdeal
import proofs.«124883_j71949292143001_1_alg».proof.Proof.Gen.ReferenceIdeal.Run
import proofs.«124883_j71949292143001_1_alg».proof.Proof.Gen.ReferenceIdeal.Read
import proofs.«124883_j71949292143001_1_alg».proof.Proof.Gen.Pre_finite_inputs
import proofs.«124883_j71949292143001_1_alg».proof.Proof.HeadSpec
import proofs.«124883_j71949292143001_1_alg».proof.Proof.KernelBlock
import proofs.«124883_j71949292143001_1_alg».proof.Proof.KernelValue
import proofs.«124883_j71949292143001_1_alg».proof.Proof.RefValue
import Idealize.ShloMosaic.Adequacy
import Idealize.ShloMosaic.Init

noncomputable section

namespace Cert.Proof

open Idealize.ShloMosaic Idealize.SL.Sem

/-- The aggregate as the kernel program's host operations build it is the aggregate stage of the reference: the
    same operations over the same shapes. -/
theorem agg_eq (x0 : (⟨Cert.KernelIdeal.S100000x128, .f32⟩ : BufTy).Contents (Elt Ideal))
    (x1 : (⟨Cert.KernelIdeal.S2x1600000, .i32⟩ : BufTy).Contents (Elt Ideal)) :
    Cert.KernelIdeal.ArrayValue.agg (F := Ideal) x0 x1 = Cert.ReferenceIdeal.Read.val_main_v13 (F := Ideal) x0 x1 := rfl

/-- The word-level kernel runs to the end without a fault and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading: nothing to preserve. -/
theorem preserves : Cert.preserves_Kernel_KernelIdeal := trivial

/-- From memories agreeing on the four arguments, the kernel's result array and the reference's result both end at
    the layer's function of the arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v19_eq (F := Ideal) _ _ _ _).trans
    (Cert.ReferenceIdeal.RefValue.result_eq _ _ _ _)).trans ?_
  rw [(hagree c).1, (hagree c).2.1, (hagree c).2.2.1, (hagree c).2.2.2]
  have e := agg_eq (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
  show Cert.HeadSpec.headOut _ _ _ _ = Cert.HeadSpec.headOut _ _ _ _
  rw [← e]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
